-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_arg10 : FVec F S256x128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256x128 .f32) (main_arg9 : FVec F S128 .f32) (main_arg10 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x128 .f32) (main_arg9 : FVec F S128 .f32) (main_arg10 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x256, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .f32⟩
  | .hbm, ⟨71, _⟩ => ⟨S_, .f32⟩
  | .hbm, ⟨72, _⟩ => ⟨S50000x256, .f32⟩
  | .hbm, ⟨73, _⟩ => ⟨S800000x1, .i32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S1x128, .f32⟩
  | .hbm, ⟨78, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x128, .f32⟩
  | .local _ .vmem, ⟨23, _⟩ => ⟨S1x128, .f32⟩
  | .local _ .vmem, ⟨24, _⟩ => ⟨S256x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x256, .f32⟩
  | .hbm, ⟨92, _⟩ => ⟨S_, .f32⟩
  | .hbm, ⟨93, _⟩ => ⟨S50000x256, .f32⟩
  | .hbm, ⟨94, _⟩ => ⟨S800000x1, .i32⟩
  | .hbm, ⟨95, _⟩ => ⟨S50000x256, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S50000x128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Mean.lean ====
/-
  The neighbour mean, two ways. The kernel's program counts every node's incoming edges once, clamps the count below at
  one, takes its reciprocal and multiplies each layer's aggregated neighbour features by it; the reference divides the
  aggregated features by the clamped count. Off zero a quotient of extended reals is the product with the inverse, and
  the clamped count is at least one, so  a · (1 / c) = a / c  for every extended real  a : no finiteness is used.
-/
import proofs.«404211_j76751065579701_1_alg».proof.Proof.Gen.KernelIdeal.Frame
import proofs.«404211_j76751065579701_1_alg».proof.Proof.Gen.ReferenceIdeal.Read
import Idealize.ShloMosaic.Lib.StableHlo.Run
import Idealize.ShloMosaic.Lib.Pipeline.Value
import Idealize.ShloMosaic.PureOps.Ideal.Laws

set_option maxRecDepth 16384

noncomputable section

namespace Cert.KernelIdeal.Mean

open Cert.KernelIdeal Cert.KernelIdeal.Gen Cert.ReferenceIdeal.Read
open Idealize.ShloMosaic Idealize.ShloMosaic.TcCoe Idealize.SL.Sem Idealize.ShloMosaic.StableHlo

/-- The float pattern of one is the real one. -/
theorem ofBits_one_f32 : Ideal.ofBits .f32 0x3F800000#32 = 1 := by
  simp [Ideal.ofBits, Ideal.ieee]
  first
    | (rw [← EReal.coe_mul]; norm_num)
    | (norm_cast; norm_num)

/-- Off zero a quotient is the product with the reciprocal, on every extended real: scaling by `1 / c` is dividing by `c`
    once `c` is at least one. -/
theorem mul_div_one (a c : EReal) (hc : 1 ≤ c) : a * Ideal.div 1 c = Ideal.div a c := by
  have h0 : c ≠ 0 := fun h => by rw [h] at hc; exact absurd hc (by norm_num)
  rw [Ideal.div, Ideal.div, if_neg h0, if_neg h0, one_mul]

abbrev EI := (⟨S2x800000, .i32⟩ : BufTy).Contents (Elt Ideal)

/-- The edges' source nodes, a negative one wrapped once, as a column. -/
def srcW (x1 : EI) : (⟨S800000x1, .i32⟩ : BufTy).Contents (Elt Ideal) :=
  broadcastInDim S800000x1 ![0] bcast_S800000_S800000x1_0
    (select
      (cmpi .slt (shapeCast S800000 (extractStridedSlice S1x800000 ![0, 0] x1 slices_S2x800000_S1x800000_0_0) shapeCasts_S1x800000_S800000)
        (broadcastInDim S800000 ![] bcast_S_S800000 (constantI S_ 32 0#32)))
      (addi (shapeCast S800000 (extractStridedSlice S1x800000 ![0, 0] x1 slices_S2x800000_S1x800000_0_0) shapeCasts_S1x800000_S800000)
        (broadcastInDim S800000 ![] bcast_S_S800000 (constantI S_ 32 50000#32)))
      (shapeCast S800000 (extractStridedSlice S1x800000 ![0, 0] x1 slices_S2x800000_S1x800000_0_0) shapeCasts_S1x800000_S800000))

/-- The edges' destination nodes as a column. -/
def dstW (x1 : EI) : (⟨S800000x1, .i32⟩ : BufTy).Contents (Elt Ideal) :=
  broadcastInDim S800000x1 ![0] bcast_S800000_S800000x1_0
    (shapeCast S800000 (extractStridedSlice S1x800000 ![1, 0] x1 slices_S2x800000_S1x800000_1_0) shapeCasts_S1x800000_S800000)

theorem srcW_eq (x1 : EI) : srcW x1 = val_main_v9 (F := Ideal) x1 := rfl
theorem dstW_eq (x1 : EI) : dstW x1 = val_main_v12 (F := Ideal) x1 := rfl

/-- One over the clamped in-degree of every node (the same literal, one, is the numerator and the clamp). -/
def invRow (x1 : EI) : S50000.Idx → EReal :=
  Host.divf (F := Ideal) (broadcastInDim S50000 ![] bcast_S_S50000 (constant S_ .f32 0x3F800000#32))
    (maximumf (Host.scatterAdd scatter_S50000_S800000x1_S800000_n_0_0_1 (broadcastInDim S50000 ![] bcast_S_S50000 (constant S_ .f32 0x00000000#32)) (dstW x1) (broadcastInDim S800000 ![] bcast_S_S800000 (constant S_ .f32 0x3F800000#32)))
      (broadcastInDim S50000 ![] bcast_S_S50000 (constant S_ .f32 0x3F800000#32)))

theorem invRow_eq (x1 : EI) : invRow x1 = Host.divf (F := Ideal) (broadcastInDim S50000 ![] bcast_S_S50000 (constant S_ .f32 0x3F800000#32)) (val_main_v19 (F := Ideal) x1) := rfl

/-- The clamped in-degree is at least one. -/
theorem one_le_cnt (x1 : EI) (n : S50000.Idx) : (1 : EReal) ≤ val_main_v19 (F := Ideal) x1 n := by
  rw [val_main_v19_apply, val_main_v18_apply, val_main_cst_3_apply]
  show (1 : EReal) ≤ max _ (Ideal.ofBits .f32 0x3F800000#32)
  rw [ofBits_one_f32]
  exact le_max_right _ _

/-- The quotient of the splat of one by a vector, at an index. -/
theorem divf_one_apply (y : S50000.Idx → EReal) (n : S50000.Idx) :
    Host.divf (F := Ideal) (broadcastInDim S50000 ![] bcast_S_S50000 (constant S_ .f32 0x3F800000#32)) y n = Ideal.div 1 (y n) := by
  show Ideal.div (broadcastInDim (α := EReal) S50000 ![] bcast_S_S50000 (constant (F := Ideal) S_ .f32 0x3F800000#32) n) (y n) = _
  rw [broadcastInDim_apply _ bcast_S_S50000 (constant (F := Ideal) S_ .f32 0x3F800000#32) n (fun a => a.elim0) (fun a => a.elim0)]
  show Ideal.div (Ideal.ofBits .f32 0x3F800000#32) (y n) = _
  rw [ofBits_one_f32]

/-- Scaling an entry by one over the clamped in-degree is dividing it by the clamped in-degree. -/
theorem mul_invRow (x1 : EI) (n : S50000.Idx) (a : EReal) : a * invRow x1 n = Ideal.div a (val_main_v19 (F := Ideal) x1 n) := by
  rw [invRow_eq, divf_one_apply]
  exact mul_div_one a _ (one_le_cnt x1 n)

/-- A per-node value broadcast to a column and then along 128 features, read at an index: the node's value. -/
theorem bcol128_apply (y : S50000.Idx → EReal) (i : S50000x128.Idx) :
    broadcastInDim (α := EReal) S50000x128 ![0, 1] bcast_S50000x1_S50000x128_0_1 (broadcastInDim S50000x1 ![0] bcast_S50000_S50000x1_0 y) i
      = y (idx_main_v20 (idx_main_v21 i)) := by
  rw [broadcastInDim_apply _ bcast_S50000x1_S50000x128_0_1 _ i (idx_main_v21 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl]),
    broadcastInDim_apply _ bcast_S50000_S50000x1_0 y (idx_main_v21 i) (idx_main_v20 (idx_main_v21 i)) (fun a => match a with
      | ⟨0, _⟩ => by show ((idx_main_v21 i) 0).val = if (50000 : Nat) = 1 then 0 else ((idx_main_v21 i) 0).val; rw [if_neg (by decide)])]

/-- The same along 256 features. -/
theorem bcol256_apply (y : S50000.Idx → EReal) (i : S50000x256.Idx) :
    broadcastInDim (α := EReal) S50000x256 ![0, 1] bcast_S50000x1_S50000x256_0_1 (broadcastInDim S50000x1 ![0] bcast_S50000_S50000x1_0 y) i
      = y (idx_main_v46 (idx_main_v47 i)) := by
  rw [broadcastInDim_apply _ bcast_S50000x1_S50000x256_0_1 _ i (idx_main_v47 i) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl]),
    broadcastInDim_apply _ bcast_S50000_S50000x1_0 y (idx_main_v47 i) (idx_main_v46 (idx_main_v47 i)) (fun a => match a with
      | ⟨0, _⟩ => by show ((idx_main_v47 i) 0).val = if (50000 : Nat) = 1 then 0 else ((idx_main_v47 i) 0).val; rw [if_neg (by decide)])]

theorem mulf_at {s : Shape} (a b : FVec Ideal s .f32) (i : s.Idx) : mulf (F := Ideal) a b i = a i * b i := rfl
theorem hdivf_at {s : Shape} (a b : FVec Ideal s .f32) (i : s.Idx) : Host.divf (F := Ideal) a b i = Ideal.div (a i) (b i) := rfl

/-- THE MEAN, two ways: the aggregated neighbour features times one over the clamped in-degree (the kernel's program) are
    the aggregated features divided by the clamped in-degree (the reference), entry by entry, whatever was aggregated. -/
theorem mean128 (agg : FVec Ideal S50000x128 .f32) (x1 : EI) :
    mulf (F := Ideal) (φ := .f32) agg (broadcastInDim S50000x128 ![0, 1] bcast_S50000x1_S50000x128_0_1 (broadcastInDim S50000x1 ![0] bcast_S50000_S50000x1_0 (invRow x1)))
      = Host.divf (F := Ideal) (φ := .f32) agg (broadcastInDim S50000x128 ![0, 1] bcast_S50000x1_S50000x128_0_1 (broadcastInDim S50000x1 ![0] bcast_S50000_S50000x1_0 (val_main_v19 (F := Ideal) x1))) := by
  funext i
  rw [mulf_at, hdivf_at, bcol128_apply, bcol128_apply]
  exact mul_invRow x1 _ _

theorem mean256 (agg : FVec Ideal S50000x256 .f32) (x1 : EI) :
    mulf (F := Ideal) (φ := .f32) agg (broadcastInDim S50000x256 ![0, 1] bcast_S50000x1_S50000x256_0_1 (broadcastInDim S50000x1 ![0] bcast_S50000_S50000x1_0 (invRow x1)))
      = Host.divf (F := Ideal) (φ := .f32) agg (broadcastInDim S50000x256 ![0, 1] bcast_S50000x1_S50000x256_0_1 (broadcastInDim S50000x1 ![0] bcast_S50000_S50000x1_0 (val_main_v19 (F := Ideal) x1))) := by
  funext i
  rw [mulf_at, hdivf_at, bcol256_apply, bcol256_apply]
  exact mul_invRow x1 _ _

end Cert.KernelIdeal.Mean

end
-- ==== Proof.Layers.lean ====
/-
  The reference's three layers, read at one index of their result: the neighbour mean's row times the neighbour weight's
  column, plus the bias entry, plus the feature row times the root weight's column (rectified in the two hidden layers).
-/
import proofs.«404211_j76751065579701_1_alg».proof.Proof.Gen.ReferenceIdeal.Read

noncomputable section

namespace Cert.ReferenceIdeal.Layers

open Cert.ReferenceIdeal Cert.ReferenceIdeal.Gen Cert.ReferenceIdeal.Read
open Idealize.ShloMosaic Idealize.ShloMosaic.TcCoe

abbrev V (s : Shape) := (⟨s, .f32⟩ : BufTy).Contents (Elt Ideal)
abbrev EI := (⟨S2x800000, .i32⟩ : BufTy).Contents (Elt Ideal)

/-- The first hidden layer at an index. -/
theorem layer0_apply (x0 : V S50000x128) (x1 : EI) (x2 : V S128x256) (x3 : V S256) (x4 : V S128x256) (i : S50000x256.Idx) :
    val_main_v29 (F := Ideal) x0 x1 x2 x3 x4 i
      = max (((∑ k : Fin 128, val_main_v22 (F := Ideal) x0 x1 (lidx_main_v23 i k) * x2 (ridx_main_v23 i k)) + x3 (idx_main_v24 (idx_main_v25 i)))
        + ∑ k : Fin 128, x0 (lidx_main_v23 i k) * x4 (ridx_main_v23 i k)) 0 := by
  rw [val_main_v29_apply, val_main_v28_apply, val_main_v26_apply, val_main_v23_apply, val_main_v27_apply, val_main_v25_apply,
    val_main_v24_apply, val_main_call0_v0_apply, val_main_call0_cst_apply]
  show max _ (Ideal.ofBits .f32 0x00000000#32) = _
  rw [Ideal.ofBits_zero_f32]
  rfl

/-- The second hidden layer at an index. -/
theorem layer1_apply (x0 : V S50000x128) (x1 : EI) (x2 : V S128x256) (x3 : V S256) (x4 : V S128x256) (x5 : V S256x256) (x6 : V S256)
    (x7 : V S256x256) (i : S50000x256.Idx) :
    val_main_v55 (F := Ideal) x0 x1 x2 x3 x4 x5 x6 x7 i
      = max (((∑ k : Fin 256, val_main_v48 (F := Ideal) x0 x1 x2 x3 x4 (lidx_main_v49 i k) * x5 (ridx_main_v49 i k)) + x6 (idx_main_v50 (idx_main_v51 i)))
        + ∑ k : Fin 256, val_main_v29 (F := Ideal) x0 x1 x2 x3 x4 (lidx_main_v49 i k) * x7 (ridx_main_v49 i k)) 0 := by
  rw [val_main_v55_apply, val_main_v54_apply, val_main_v52_apply, val_main_v49_apply, val_main_v53_apply, val_main_v51_apply,
    val_main_v50_apply, val_main_call1_v0_apply, val_main_call1_cst_apply]
  show max _ (Ideal.ofBits .f32 0x00000000#32) = _
  rw [Ideal.ofBits_zero_f32]
  rfl

/-- The output layer at an index (no rectifier). -/
theorem layer2_apply (x0 : V S50000x128) (x1 : EI) (x2 : V S128x256) (x3 : V S256) (x4 : V S128x256) (x5 : V S256x256) (x6 : V S256)
    (x7 : V S256x256) (x8 : V S256x128) (x9 : V S128) (x10 : V S256x128) (i : S50000x128.Idx) :
    val_main_v80 (F := Ideal) x0 x1 x2 x3 x4 x5 x6 x7 x8 x9 x10 i
      = ((∑ k : Fin 256, val_main_v74 (F := Ideal) x0 x1 x2 x3 x4 x5 x6 x7 (lidx_main_v75 i k) * x8 (ridx_main_v75 i k)) + x9 (idx_main_v76 (idx_main_v77 i)))
        + ∑ k : Fin 256, val_main_v55 (F := Ideal) x0 x1 x2 x3 x4 x5 x6 x7 (lidx_main_v75 i k) * x10 (ridx_main_v75 i k) := by
  rw [val_main_v80_apply, val_main_v78_apply, val_main_v75_apply, val_main_v79_apply, val_main_v77_apply, val_main_v76_apply]
  rfl

end Cert.ReferenceIdeal.Layers

end
-- ==== Proof.Pay0.lean ====
/-
  Layer 0's kernel body, read at one index of its output block over the extended reals: each matrix product into a zero
  accumulator is the inner product of a row with a weight column (a change of float format is the identity), the bias
  row is broadcast down the rows, and the rectifier is the maximum with zero.
-/
import proofs.«404211_j76751065579701_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.TcCoe

/-! ## Layer 0's body at an index -/

theorem lhs0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Row `j 0`, column `k` of a block of 2000 rows of 128 features. -/
abbrev lix0 (j : S2000x256.Idx) (k : Fin 128) : S2000x128.Idx := fun a => match a with
  | ⟨0, _⟩ => ⟨(j 0).val, (j 0).isLt⟩
  | ⟨1, _⟩ => ⟨k.val, k.isLt⟩
/-- Row `k`, column `j 1` of a 128 × 256 weight matrix. -/
abbrev rix0 (j : S2000x256.Idx) (k : Fin 128) : S128x256.Idx := fun a => match a with
  | ⟨0, _⟩ => ⟨k.val, k.isLt⟩
  | ⟨1, _⟩ => ⟨(j 1).val, (j 1).isLt⟩
/-- Column `j 1` of the bias row. -/
abbrev bix0 (j : S2000x256.Idx) : S1x256.Idx := fun a => match a with
  | ⟨0, _⟩ => ⟨0, Nat.one_pos⟩
  | ⟨1, _⟩ => ⟨(j 1).val, (j 1).isLt⟩

/-- A product of a row block with a weight matrix into a zero accumulator, at an index: the row's inner product with the column. -/
theorem mm0_apply (l : FVec Ideal S2000x128 .bf16) (r : FVec Ideal S128x256 .bf16) (j : S2000x256.Idx) :
    matmul (F := Ideal) dot_S2000x128_S128x256_S2000x256_1_0_0_1_n_n none l r (constant (F := Ideal) S2000x256 .f32 0x00000000#32) j
      = ∑ k : Fin 128, l (lix0 j k) * r (rix0 j k) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = lix0 j k := funext fun a => Fin.ext (by
    match a with
    | ⟨0, _⟩ => exact lhs0_0 _ _
    | ⟨1, _⟩ => exact (lhs0_1 _ _).trans hk)
  have er : dot_S2000x128_S128x256_S2000x256_1_0_0_1_n_n.rhsIdx j ((ValueIdx.contrEquiv1 dot_S2000x128_S128x256_S2000x256_1_0_0_1_n_n 128 rfl rfl).symm k) = rix0 j k := funext fun a => Fin.ext (by
    match a with
    | ⟨0, _⟩ => exact (rhs0_0 _ _).trans hk
    | ⟨1, _⟩ => exact rhs0_1 _ _)
  rw [el, er]

/-- Layer 0's body at an index of its output block: the mean row's and the feature row's inner products with the two weight
    columns, plus the bias entry, clamped below at zero. -/
theorem pay0_apply (v0 v3 : Vec Ideal S2000x128 .f32) (v5 v7 : Vec Ideal S128x256 .f32) (v12 : Vec Ideal S1x256 .f32) (j : S2000x256.Idx) :
    k0_pay1 (F := Ideal) v0 v3 v5 v7 v12 j
      = max (((∑ k : Fin 128, v0 (lix0 j k) * v5 (rix0 j k)) + (∑ k : Fin 128, v3 (lix0 j k) * v7 (rix0 j k))) + v12 (bix0 j)) 0 := by
  unfold k0_pay1
  show max ((matmul (F := Ideal) dot_S2000x128_S128x256_S2000x256_1_0_0_1_n_n none _ _ (constant (F := Ideal) S2000x256 .f32 0x00000000#32) j
        + matmul (F := Ideal) dot_S2000x128_S128x256_S2000x256_1_0_0_1_n_n none _ _ (constant (F := Ideal) S2000x256 .f32 0x00000000#32) j)
        + broadcastTo (α := EReal) S2000x256 (shapeCast S1x256 v12 shapeCasts_S1x256_S1x256) broadcasts_S1x256_S2000x256 j) (Ideal.ofBits .f32 0x00000000#32) = _
  rw [mm0_apply, mm0_apply, Ideal.ofBits_zero_f32]
  simp only [shapeCast_self]
  rw [broadcastTo_apply v12 broadcasts_S1x256_S2000x256 j (bix0 j) (fun a => match a with
      | ⟨0, _⟩ => by show 0 = if (1 : Nat) = 1 then 0 else _; rw [if_pos rfl]
      | ⟨1, _⟩ => by show (j 1).val = if (256 : Nat) = 1 then 0 else (j 1).val; rw [if_neg (by decide)])]
  rfl

end Cert.KernelIdeal.Pay

end
-- ==== Proof.Region0.lean ====
/-
  Layer 0's region: what its output array holds after the run, for any contents of the buffers on entry. Each grid
  point takes 2000 rows of the neighbour mean and of the features, the two whole weight matrices and the bias row, and
  writes back 2000 rows of  max (mean · W_l + x · W_r + b, 0).  Read at an index of the output array this is
  max ((mean · W_l + b) + x · W_r, 0):  the same three summands, added in another order. The 25 blocks tile the 50000 rows.
-/
import proofs.«404211_j76751065579701_1_alg».proof.Proof.Gen.KernelIdeal.Frame
import proofs.«404211_j76751065579701_1_alg».proof.Proof.Gen.ReferenceIdeal.Read
import proofs.«404211_j76751065579701_1_alg».proof.Proof.Pay0
import Idealize.ShloMosaic.Lib.Pipeline.Value

set_option maxRecDepth 16384

noncomputable section

namespace Cert.KernelIdeal.Region0

open Cert.KernelIdeal Cert.KernelIdeal.Gen Cert.KernelIdeal.Pay Cert.ReferenceIdeal.Read
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two row-blocked inputs and the output move with the point, the weights
    and the bias row stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The mean block's row `j 0`, feature `k`, is the mean array's entry on the output index's row. -/
theorem blk_mean (c : Dev nD) (t : Fin cfg0.N) (j : S2000x256.Idx) (k : Fin 128) :
    iblk0 V c 0 t (lix0 j k) = (V c main_v24 : S50000x128.Idx → EReal) (lidx_main_v23 (((cfg0.win 5).blk t).view.emb j) k) := by
  unfold iblk0
  rw [View.read_apply]
  show V c main_v24 _ = V c main_v24 _
  obtain ⟨e00, e01, e10, e11, e20, e21, e30, e31, e40, e41, e50, e51⟩ := idx_facts t
  refine congrArg _ (funext fun a => Fin.ext ?_)
  match a with
  | ⟨0, _⟩ => show win0_0.index t (0 : Fin 2) * 2000 + 1 * (j 0).val = win0_5.index t (0 : Fin 2) * 2000 + 1 * (j 0).val; omega
  | ⟨1, _⟩ => show win0_0.index t (1 : Fin 2) * 128 + 1 * k.val = k.val; omega

/-- The feature block's row `j 0`, feature `k`, is the feature array's entry on the output index's row. -/
theorem blk_h (c : Dev nD) (t : Fin cfg0.N) (j : S2000x256.Idx) (k : Fin 128) :
    iblk0 V c 1 t (lix0 j k) = (V c main_arg0 : S50000x128.Idx → EReal) (lidx_main_v23 (((cfg0.win 5).blk t).view.emb j) k) := by
  unfold iblk0
  rw [View.read_apply]
  show V c main_arg0 _ = V c main_arg0 _
  obtain ⟨e00, e01, e10, e11, e20, e21, e30, e31, e40, e41, e50, e51⟩ := idx_facts t
  refine congrArg _ (funext fun a => Fin.ext ?_)
  match a with
  | ⟨0, _⟩ => show win0_1.index t (0 : Fin 2) * 2000 + 1 * (j 0).val = win0_5.index t (0 : Fin 2) * 2000 + 1 * (j 0).val; omega
  | ⟨1, _⟩ => show win0_1.index t (1 : Fin 2) * 128 + 1 * k.val = k.val; omega

/-- The neighbour weight's block is the whole matrix: row `k`, the output index's column. -/
theorem blk_wl (c : Dev nD) (t : Fin cfg0.N) (j : S2000x256.Idx) (k : Fin 128) :
    iblk0 V c 2 t (rix0 j k) = (V c main_arg2 : S128x256.Idx → EReal) (ridx_main_v23 (((cfg0.win 5).blk t).view.emb j) k) := by
  unfold iblk0
  rw [View.read_apply]
  show V c main_arg2 _ = V c main_arg2 _
  obtain ⟨e00, e01, e10, e11, e20, e21, e30, e31, e40, e41, e50, e51⟩ := idx_facts t
  refine congrArg _ (funext fun a => Fin.ext ?_)
  match a with
  | ⟨0, _⟩ => show win0_2.index t (0 : Fin 2) * 128 + 1 * k.val = k.val; omega
  | ⟨1, _⟩ => show win0_2.index t (1 : Fin 2) * 256 + 1 * (j 1).val = win0_5.index t (1 : Fin 2) * 256 + 1 * (j 1).val; omega

/-- The root weight's block is the whole matrix: row `k`, the output index's column. -/
theorem blk_wr (c : Dev nD) (t : Fin cfg0.N) (j : S2000x256.Idx) (k : Fin 128) :
    iblk0 V c 4 t (rix0 j k) = (V c main_arg4 : S128x256.Idx → EReal) (ridx_main_v23 (((cfg0.win 5).blk t).view.emb j) k) := by
  unfold iblk0
  rw [View.read_apply]
  show V c main_arg4 _ = V c main_arg4 _
  obtain ⟨e00, e01, e10, e11, e20, e21, e30, e31, e40, e41, e50, e51⟩ := idx_facts t
  refine congrArg _ (funext fun a => Fin.ext ?_)
  match a with
  | ⟨0, _⟩ => show win0_4.index t (0 : Fin 2) * 128 + 1 * k.val = k.val; omega
  | ⟨1, _⟩ => show win0_4.index t (1 : Fin 2) * 256 + 1 * (j 1).val = win0_5.index t (1 : Fin 2) * 256 + 1 * (j 1).val; omega

/-- The bias row's block is the whole row: the output index's column. -/
theorem blk_b (c : Dev nD) (t : Fin cfg0.N) (j : S2000x256.Idx) :
    iblk0 V c 3 t (bix0 j) = (V c main_v25 : S1x256.Idx → EReal) (idx_main_v25 (((cfg0.win 5).blk t).view.emb j)) := by
  unfold iblk0
  rw [View.read_apply]
  show V c main_v25 _ = V c main_v25 _
  obtain ⟨e00, e01, e10, e11, e20, e21, e30, e31, e40, e41, e50, e51⟩ := idx_facts t
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * (j 1).val = win0_5.index t (1 : Fin 2) * 256 + 1 * (j 1).val; omega

/-- The bias reshaped to a row reads the bias at the column. -/
theorem brow_apply (x3 : S256.Idx → EReal) (i : S1x256.Idx) :
    shapeCast S1x256 x3 shapeCasts_S256_S1x256 i = x3 (idx_main_v24 i) := by
  refine shapeCast_apply x3 shapeCasts_S256_S1x256 i (idx_main_v24 i) ?_
  rw [Shape.rowMajor_val_one, Shape.rowMajor_val_two]
  have h0 : (i 0).val < 1 := (i 0).isLt
  show (i 1).val = (i 0).val * 256 + (i 1).val
  omega

/-- WHAT POINT `t` WRITES BACK is block `t` of any array `G` that holds, at every index, the rectified sum of the mean
    row's product with the neighbour weight column, the bias entry and the feature row's product with the root weight
    column — when the region's arrays hold that mean, those features, the two weights and the bias as a row. The body
    adds the bias last and `G` adds it second: addition of extended reals is commutative and associative. -/
theorem flushed (c : Dev nD) (mean h : S50000x128.Idx → EReal) (wl wr : S128x256.Idx → EReal) (b : S256.Idx → EReal)
    (G : S50000x256.Idx → EReal)
    (hG : ∀ i, G i = max (((∑ k : Fin 128, mean (lidx_main_v23 i k) * wl (ridx_main_v23 i k)) + b (idx_main_v24 (idx_main_v25 i)))
      + ∑ k : Fin 128, h (lidx_main_v23 i k) * wr (ridx_main_v23 i k)) 0)
    (hmean : (V c main_v24 : S50000x128.Idx → EReal) = mean)
    (hh : (V c main_arg0 : S50000x128.Idx → EReal) = h) (hwl : (V c main_arg2 : S128x256.Idx → EReal) = wl)
    (hb : (V c main_v25 : S1x256.Idx → EReal) = shapeCast S1x256 b shapeCasts_S256_S1x256)
    (hwr : (V c main_arg4 : S128x256.Idx → EReal) = wr) (t : Fin cfg0.N) :
    (dat0 V c).flushed 5 t = ((cfg0.win 5).blk t).view.read (Elt Ideal) G := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  rw [View.read_apply]
  show k0_pay1 (F := Ideal) (iblk0 V c 0 t) (iblk0 V c 1 t) (iblk0 V c 2 t) (iblk0 V c 4 t) (iblk0 V c 3 t) j = _
  rw [pay0_apply, cast_eq, hG]
  simp only [blk_mean, blk_h, blk_wl, blk_wr, blk_b, hmean, hh, hwl, hb, hwr, brow_apply]
  rw [add_right_comm]

/-- Every index of the output array lies in the block of the grid point its row belongs to. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  refine ⟨t, flush0_5 t, ?_⟩
  show i ∈ ((View.whole main_v26).slice (win0_5.rect t)).set
  rw [View.set_slice_whole, Rect.mem_set_unit]
  obtain ⟨e00, e01, e10, e11, e20, e21, e30, e31, e40, e41, e50, e51⟩ := idx_facts t
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- THE OUTPUT ARRAY after the region is `G`. -/
theorem final (c : Dev nD) (mean h : S50000x128.Idx → EReal) (wl wr : S128x256.Idx → EReal) (b : S256.Idx → EReal)
    (G : S50000x256.Idx → EReal)
    (hG : ∀ i, G i = max (((∑ k : Fin 128, mean (lidx_main_v23 i k) * wl (ridx_main_v23 i k)) + b (idx_main_v24 (idx_main_v25 i)))
      + ∑ k : Fin 128, h (lidx_main_v23 i k) * wr (ridx_main_v23 i k)) 0)
    (hmean : (V c main_v24 : S50000x128.Idx → EReal) = mean)
    (hh : (V c main_arg0 : S50000x128.Idx → EReal) = h) (hwl : (V c main_arg2 : S128x256.Idx → EReal) = wl)
    (hb : (V c main_v25 : S1x256.Idx → EReal) = shapeCast S1x256 b shapeCasts_S256_S1x256)
    (hwr : (V c main_arg4 : S128x256.Idx → EReal) = wr) :
    (dat0 V c).arrAt 5 cfg0.N = G :=
  (dat0 V c).arrAt_eq_of_cover 5 G (fun t _ => flushed V c mean h wl wr b G hG hmean hh hwl hb hwr t) cover

end Cert.KernelIdeal.Region0

end
-- ==== Proof.Pay1.lean ====
/-
  Layer 1's kernel body, read at one index of its output block over the extended reals: each matrix product into a zero
  accumulator is the inner product of a row with a weight column (a change of float format is the identity), the bias
  row is broadcast down the rows, and the rectifier is the maximum with zero.
-/
import proofs.«404211_j76751065579701_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.TcCoe

/-! ## Layer 1's body at an index -/

theorem lhs1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs1_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Row `j 0`, column `k` of a block of 2000 rows of 256 features. -/
abbrev lix1 (j : S2000x256.Idx) (k : Fin 256) : S2000x256.Idx := fun a => match a with
  | ⟨0, _⟩ => ⟨(j 0).val, (j 0).isLt⟩
  | ⟨1, _⟩ => ⟨k.val, k.isLt⟩
/-- Row `k`, column `j 1` of a 256 × 256 weight matrix. -/
abbrev rix1 (j : S2000x256.Idx) (k : Fin 256) : S256x256.Idx := fun a => match a with
  | ⟨0, _⟩ => ⟨k.val, k.isLt⟩
  | ⟨1, _⟩ => ⟨(j 1).val, (j 1).isLt⟩
/-- Column `j 1` of the bias row. -/
abbrev bix1 (j : S2000x256.Idx) : S1x256.Idx := fun a => match a with
  | ⟨0, _⟩ => ⟨0, Nat.one_pos⟩
  | ⟨1, _⟩ => ⟨(j 1).val, (j 1).isLt⟩

/-- A product of a row block with a weight matrix into a zero accumulator, at an index: the row's inner product with the column. -/
theorem mm1_apply (l : FVec Ideal S2000x256 .bf16) (r : FVec Ideal S256x256 .bf16) (j : S2000x256.Idx) :
    matmul (F := Ideal) dot_S2000x256_S256x256_S2000x256_1_0_0_1_n_n none l r (constant (F := Ideal) S2000x256 .f32 0x00000000#32) j
      = ∑ k : Fin 256, l (lix1 j k) * r (rix1 j k) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = lix1 j k := funext fun a => Fin.ext (by
    match a with
    | ⟨0, _⟩ => exact lhs1_0 _ _
    | ⟨1, _⟩ => exact (lhs1_1 _ _).trans hk)
  have er : dot_S2000x256_S256x256_S2000x256_1_0_0_1_n_n.rhsIdx j ((ValueIdx.contrEquiv1 dot_S2000x256_S256x256_S2000x256_1_0_0_1_n_n 256 rfl rfl).symm k) = rix1 j k := funext fun a => Fin.ext (by
    match a with
    | ⟨0, _⟩ => exact (rhs1_0 _ _).trans hk
    | ⟨1, _⟩ => exact rhs1_1 _ _)
  rw [el, er]

/-- Layer 1's body at an index of its output block: the mean row's and the feature row's inner products with the two weight
    columns, plus the bias entry, clamped below at zero. -/
theorem pay1_apply (v0 v3 : Vec Ideal S2000x256 .f32) (v5 v7 : Vec Ideal S256x256 .f32) (v12 : Vec Ideal S1x256 .f32) (j : S2000x256.Idx) :
    k1_pay1 (F := Ideal) v0 v3 v5 v7 v12 j
      = max (((∑ k : Fin 256, v0 (lix1 j k) * v5 (rix1 j k)) + (∑ k : Fin 256, v3 (lix1 j k) * v7 (rix1 j k))) + v12 (bix1 j)) 0 := by
  unfold k1_pay1
  show max ((matmul (F := Ideal) dot_S2000x256_S256x256_S2000x256_1_0_0_1_n_n none _ _ (constant (F := Ideal) S2000x256 .f32 0x00000000#32) j
        + matmul (F := Ideal) dot_S2000x256_S256x256_S2000x256_1_0_0_1_n_n none _ _ (constant (F := Ideal) S2000x256 .f32 0x00000000#32) j)
        + broadcastTo (α := EReal) S2000x256 (shapeCast S1x256 v12 shapeCasts_S1x256_S1x256) broadcasts_S1x256_S2000x256 j) (Ideal.ofBits .f32 0x00000000#32) = _
  rw [mm1_apply, mm1_apply, Ideal.ofBits_zero_f32]
  simp only [shapeCast_self]
  rw [broadcastTo_apply v12 broadcasts_S1x256_S2000x256 j (bix1 j) (fun a => match a with
      | ⟨0, _⟩ => by show 0 = if (1 : Nat) = 1 then 0 else _; rw [if_pos rfl]
      | ⟨1, _⟩ => by show (j 1).val = if (256 : Nat) = 1 then 0 else (j 1).val; rw [if_neg (by decide)])]
  rfl

end Cert.KernelIdeal.Pay

end
-- ==== Proof.Region1.lean ====
/-
  Layer 1's region: what its output array holds after the run, for any contents of the buffers on entry. Each grid
  point takes 2000 rows of the neighbour mean and of the features, the two whole weight matrices and the bias row, and
  writes back 2000 rows of  max (mean · W_l + x · W_r + b, 0).  Read at an index of the output array this is
  max ((mean · W_l + b) + x · W_r, 0):  the same three summands, added in another order. The 25 blocks tile the 50000 rows.
-/
import proofs.«404211_j76751065579701_1_alg».proof.Proof.Gen.KernelIdeal.Frame
import proofs.«404211_j76751065579701_1_alg».proof.Proof.Gen.ReferenceIdeal.Read
import proofs.«404211_j76751065579701_1_alg».proof.Proof.Pay1
import Idealize.ShloMosaic.Lib.Pipeline.Value

set_option maxRecDepth 16384

noncomputable section

namespace Cert.KernelIdeal.Region1

open Cert.KernelIdeal Cert.KernelIdeal.Gen Cert.KernelIdeal.Pay Cert.ReferenceIdeal.Read
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two row-blocked inputs and the output move with the point, the weights
    and the bias row stay at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean block's row `j 0`, feature `k`, is the mean array's entry on the output index's row. -/
theorem blk_mean (c : Dev nD) (t : Fin cfg1.N) (j : S2000x256.Idx) (k : Fin 256) :
    iblk1 V c 0 t (lix1 j k) = (V c main_v38 : S50000x256.Idx → EReal) (lidx_main_v49 (((cfg1.win 5).blk t).view.emb j) k) := by
  unfold iblk1
  rw [View.read_apply]
  show V c main_v38 _ = V c main_v38 _
  obtain ⟨e00, e01, e10, e11, e20, e21, e30, e31, e40, e41, e50, e51⟩ := idx_facts t
  refine congrArg _ (funext fun a => Fin.ext ?_)
  match a with
  | ⟨0, _⟩ => show win1_0.index t (0 : Fin 2) * 2000 + 1 * (j 0).val = win1_5.index t (0 : Fin 2) * 2000 + 1 * (j 0).val; omega
  | ⟨1, _⟩ => show win1_0.index t (1 : Fin 2) * 256 + 1 * k.val = k.val; omega

/-- The feature block's row `j 0`, feature `k`, is the feature array's entry on the output index's row. -/
theorem blk_h (c : Dev nD) (t : Fin cfg1.N) (j : S2000x256.Idx) (k : Fin 256) :
    iblk1 V c 1 t (lix1 j k) = (V c main_v26 : S50000x256.Idx → EReal) (lidx_main_v49 (((cfg1.win 5).blk t).view.emb j) k) := by
  unfold iblk1
  rw [View.read_apply]
  show V c main_v26 _ = V c main_v26 _
  obtain ⟨e00, e01, e10, e11, e20, e21, e30, e31, e40, e41, e50, e51⟩ := idx_facts t
  refine congrArg _ (funext fun a => Fin.ext ?_)
  match a with
  | ⟨0, _⟩ => show win1_1.index t (0 : Fin 2) * 2000 + 1 * (j 0).val = win1_5.index t (0 : Fin 2) * 2000 + 1 * (j 0).val; omega
  | ⟨1, _⟩ => show win1_1.index t (1 : Fin 2) * 256 + 1 * k.val = k.val; omega

/-- The neighbour weight's block is the whole matrix: row `k`, the output index's column. -/
theorem blk_wl (c : Dev nD) (t : Fin cfg1.N) (j : S2000x256.Idx) (k : Fin 256) :
    iblk1 V c 2 t (rix1 j k) = (V c main_arg5 : S256x256.Idx → EReal) (ridx_main_v49 (((cfg1.win 5).blk t).view.emb j) k) := by
  unfold iblk1
  rw [View.read_apply]
  show V c main_arg5 _ = V c main_arg5 _
  obtain ⟨e00, e01, e10, e11, e20, e21, e30, e31, e40, e41, e50, e51⟩ := idx_facts t
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * (j 1).val = win1_5.index t (1 : Fin 2) * 256 + 1 * (j 1).val; omega

/-- The root weight's block is the whole matrix: row `k`, the output index's column. -/
theorem blk_wr (c : Dev nD) (t : Fin cfg1.N) (j : S2000x256.Idx) (k : Fin 256) :
    iblk1 V c 4 t (rix1 j k) = (V c main_arg7 : S256x256.Idx → EReal) (ridx_main_v49 (((cfg1.win 5).blk t).view.emb j) k) := by
  unfold iblk1
  rw [View.read_apply]
  show V c main_arg7 _ = V c main_arg7 _
  obtain ⟨e00, e01, e10, e11, e20, e21, e30, e31, e40, e41, e50, e51⟩ := idx_facts t
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * (j 1).val = win1_5.index t (1 : Fin 2) * 256 + 1 * (j 1).val; omega

/-- The bias row's block is the whole row: the output index's column. -/
theorem blk_b (c : Dev nD) (t : Fin cfg1.N) (j : S2000x256.Idx) :
    iblk1 V c 3 t (bix1 j) = (V c main_v39 : S1x256.Idx → EReal) (idx_main_v51 (((cfg1.win 5).blk t).view.emb j)) := by
  unfold iblk1
  rw [View.read_apply]
  show V c main_v39 _ = V c main_v39 _
  obtain ⟨e00, e01, e10, e11, e20, e21, e30, e31, e40, e41, e50, e51⟩ := idx_facts t
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * (j 1).val = win1_5.index t (1 : Fin 2) * 256 + 1 * (j 1).val; omega

/-- The bias reshaped to a row reads the bias at the column. -/
theorem brow_apply (x3 : S256.Idx → EReal) (i : S1x256.Idx) :
    shapeCast S1x256 x3 shapeCasts_S256_S1x256 i = x3 (idx_main_v50 i) := by
  refine shapeCast_apply x3 shapeCasts_S256_S1x256 i (idx_main_v50 i) ?_
  rw [Shape.rowMajor_val_one, Shape.rowMajor_val_two]
  have h0 : (i 0).val < 1 := (i 0).isLt
  show (i 1).val = (i 0).val * 256 + (i 1).val
  omega

/-- WHAT POINT `t` WRITES BACK is block `t` of any array `G` that holds, at every index, the rectified sum of the mean
    row's product with the neighbour weight column, the bias entry and the feature row's product with the root weight
    column — when the region's arrays hold that mean, those features, the two weights and the bias as a row. The body
    adds the bias last and `G` adds it second: addition of extended reals is commutative and associative. -/
theorem flushed (c : Dev nD) (mean h : S50000x256.Idx → EReal) (wl wr : S256x256.Idx → EReal) (b : S256.Idx → EReal)
    (G : S50000x256.Idx → EReal)
    (hG : ∀ i, G i = max (((∑ k : Fin 256, mean (lidx_main_v49 i k) * wl (ridx_main_v49 i k)) + b (idx_main_v50 (idx_main_v51 i)))
      + ∑ k : Fin 256, h (lidx_main_v49 i k) * wr (ridx_main_v49 i k)) 0)
    (hmean : (V c main_v38 : S50000x256.Idx → EReal) = mean)
    (hh : (V c main_v26 : S50000x256.Idx → EReal) = h) (hwl : (V c main_arg5 : S256x256.Idx → EReal) = wl)
    (hb : (V c main_v39 : S1x256.Idx → EReal) = shapeCast S1x256 b shapeCasts_S256_S1x256)
    (hwr : (V c main_arg7 : S256x256.Idx → EReal) = wr) (t : Fin cfg1.N) :
    (dat1 V c).flushed 5 t = ((cfg1.win 5).blk t).view.read (Elt Ideal) G := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext j
  rw [View.read_apply]
  show k1_pay1 (F := Ideal) (iblk1 V c 0 t) (iblk1 V c 1 t) (iblk1 V c 2 t) (iblk1 V c 4 t) (iblk1 V c 3 t) j = _
  rw [pay1_apply, cast_eq, hG]
  simp only [blk_mean, blk_h, blk_wl, blk_wr, blk_b, hmean, hh, hwl, hb, hwr, brow_apply]
  rw [add_right_comm]

/-- Every index of the output array lies in the block of the grid point its row belongs to. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  refine ⟨t, flush1_5 t, ?_⟩
  show i ∈ ((View.whole main_v40).slice (win1_5.rect t)).set
  rw [View.set_slice_whole, Rect.mem_set_unit]
  obtain ⟨e00, e01, e10, e11, e20, e21, e30, e31, e40, e41, e50, e51⟩ := idx_facts t
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 256 ≤ (i 1).val ∧ (i 1).val < win1_5.index t (1 : Fin 2) * 256 + 256
    omega

/-- THE OUTPUT ARRAY after the region is `G`. -/
theorem final (c : Dev nD) (mean h : S50000x256.Idx → EReal) (wl wr : S256x256.Idx → EReal) (b : S256.Idx → EReal)
    (G : S50000x256.Idx → EReal)
    (hG : ∀ i, G i = max (((∑ k : Fin 256, mean (lidx_main_v49 i k) * wl (ridx_main_v49 i k)) + b (idx_main_v50 (idx_main_v51 i)))
      + ∑ k : Fin 256, h (lidx_main_v49 i k) * wr (ridx_main_v49 i k)) 0)
    (hmean : (V c main_v38 : S50000x256.Idx → EReal) = mean)
    (hh : (V c main_v26 : S50000x256.Idx → EReal) = h) (hwl : (V c main_arg5 : S256x256.Idx → EReal) = wl)
    (hb : (V c main_v39 : S1x256.Idx → EReal) = shapeCast S1x256 b shapeCasts_S256_S1x256)
    (hwr : (V c main_arg7 : S256x256.Idx → EReal) = wr) :
    (dat1 V c).arrAt 5 cfg1.N = G :=
  (dat1 V c).arrAt_eq_of_cover 5 G (fun t _ => flushed V c mean h wl wr b G hG hmean hh hwl hb hwr t) cover

end Cert.KernelIdeal.Region1

end
-- ==== Proof.Pay2.lean ====
/-
  Layer 2's kernel body, read at one index of its output block over the extended reals: each matrix product into a zero
  accumulator is the inner product of a row with a weight column (a change of float format is the identity), the bias
  row is broadcast down the rows, and this layer has no rectifier.
-/
import proofs.«404211_j76751065579701_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.TcCoe

/-! ## Layer 2's body at an index -/

theorem lhs2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Row `j 0`, column `k` of a block of 2000 rows of 256 features. -/
abbrev lix2 (j : S2000x128.Idx) (k : Fin 256) : S2000x256.Idx := fun a => match a with
  | ⟨0, _⟩ => ⟨(j 0).val, (j 0).isLt⟩
  | ⟨1, _⟩ => ⟨k.val, k.isLt⟩
/-- Row `k`, column `j 1` of a 256 × 128 weight matrix. -/
abbrev rix2 (j : S2000x128.Idx) (k : Fin 256) : S256x128.Idx := fun a => match a with
  | ⟨0, _⟩ => ⟨k.val, k.isLt⟩
  | ⟨1, _⟩ => ⟨(j 1).val, (j 1).isLt⟩
/-- Column `j 1` of the bias row. -/
abbrev bix2 (j : S2000x128.Idx) : S1x128.Idx := fun a => match a with
  | ⟨0, _⟩ => ⟨0, Nat.one_pos⟩
  | ⟨1, _⟩ => ⟨(j 1).val, (j 1).isLt⟩

/-- A product of a row block with a weight matrix into a zero accumulator, at an index: the row's inner product with the column. -/
theorem mm2_apply (l : FVec Ideal S2000x256 .bf16) (r : FVec Ideal S256x128 .bf16) (j : S2000x128.Idx) :
    matmul (F := Ideal) dot_S2000x256_S256x128_S2000x128_1_0_0_1_n_n none l r (constant (F := Ideal) S2000x128 .f32 0x00000000#32) j
      = ∑ k : Fin 256, l (lix2 j k) * r (rix2 j k) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx j ((ValueIdx.contrEquiv1 dot_S2000x256_S256x128_S2000x128_1_0_0_1_n_n 256 rfl rfl).symm k) = lix2 j k := funext fun a => Fin.ext (by
    match a with
    | ⟨0, _⟩ => exact lhs2_0 _ _
    | ⟨1, _⟩ => exact (lhs2_1 _ _).trans hk)
  have er : dot_S2000x256_S256x128_S2000x128_1_0_0_1_n_n.rhsIdx j ((ValueIdx.contrEquiv1 dot_S2000x256_S256x128_S2000x128_1_0_0_1_n_n 256 rfl rfl).symm k) = rix2 j k := funext fun a => Fin.ext (by
    match a with
    | ⟨0, _⟩ => exact (rhs2_0 _ _).trans hk
    | ⟨1, _⟩ => exact rhs2_1 _ _)
  rw [el, er]

/-- Layer 2's body at an index of its output block: the mean row's and the feature row's inner products with the two weight
    columns, plus the bias entry. -/
theorem pay2_apply (v0 v3 : Vec Ideal S2000x256 .f32) (v5 v7 : Vec Ideal S256x128 .f32) (v12 : Vec Ideal S1x128 .f32) (j : S2000x128.Idx) :
    k2_pay1 (F := Ideal) v0 v3 v5 v7 v12 j
      = ((∑ k : Fin 256, v0 (lix2 j k) * v5 (rix2 j k)) + (∑ k : Fin 256, v3 (lix2 j k) * v7 (rix2 j k))) + v12 (bix2 j) := by
  unfold k2_pay1
  show ((matmul (F := Ideal) dot_S2000x256_S256x128_S2000x128_1_0_0_1_n_n none _ _ (constant (F := Ideal) S2000x128 .f32 0x00000000#32) j
        + matmul (F := Ideal) dot_S2000x256_S256x128_S2000x128_1_0_0_1_n_n none _ _ (constant (F := Ideal) S2000x128 .f32 0x00000000#32) j)
        + broadcastTo (α := EReal) S2000x128 (shapeCast S1x128 v12 shapeCasts_S1x128_S1x128) broadcasts_S1x128_S2000x128 j) = _
  rw [mm2_apply, mm2_apply]
  simp only [shapeCast_self]
  rw [broadcastTo_apply v12 broadcasts_S1x128_S2000x128 j (bix2 j) (fun a => match a with
      | ⟨0, _⟩ => by show 0 = if (1 : Nat) = 1 then 0 else _; rw [if_pos rfl]
      | ⟨1, _⟩ => by show (j 1).val = if (128 : Nat) = 1 then 0 else (j 1).val; rw [if_neg (by decide)])]
  rfl

end Cert.KernelIdeal.Pay

end
-- ==== Proof.Region2.lean ====
/-
  Layer 2's region: what its output array holds after the run, for any contents of the buffers on entry. Each grid
  point takes 2000 rows of the neighbour mean and of the features, the two whole weight matrices and the bias row, and
  writes back 2000 rows of  mean · W_l + x · W_r + b.  Read at an index of the output array this is
  (mean · W_l + b) + x · W_r:  the same three summands, added in another order. The 25 blocks tile the 50000 rows.
-/
import proofs.«404211_j76751065579701_1_alg».proof.Proof.Gen.KernelIdeal.Frame
import proofs.«404211_j76751065579701_1_alg».proof.Proof.Gen.ReferenceIdeal.Read
import proofs.«404211_j76751065579701_1_alg».proof.Proof.Pay2
import Idealize.ShloMosaic.Lib.Pipeline.Value

set_option maxRecDepth 16384

noncomputable section

namespace Cert.KernelIdeal.Region2

open Cert.KernelIdeal Cert.KernelIdeal.Gen Cert.KernelIdeal.Pay Cert.ReferenceIdeal.Read
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the two row-blocked inputs and the output move with the point, the weights
    and the bias row stay at block zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The mean block's row `j 0`, feature `k`, is the mean array's entry on the output index's row. -/
theorem blk_mean (c : Dev nD) (t : Fin cfg2.N) (j : S2000x128.Idx) (k : Fin 256) :
    iblk2 V c 0 t (lix2 j k) = (V c main_v52 : S50000x256.Idx → EReal) (lidx_main_v75 (((cfg2.win 5).blk t).view.emb j) k) := by
  unfold iblk2
  rw [View.read_apply]
  show V c main_v52 _ = V c main_v52 _
  obtain ⟨e00, e01, e10, e11, e20, e21, e30, e31, e40, e41, e50, e51⟩ := idx_facts t
  refine congrArg _ (funext fun a => Fin.ext ?_)
  match a with
  | ⟨0, _⟩ => show win2_0.index t (0 : Fin 2) * 2000 + 1 * (j 0).val = win2_5.index t (0 : Fin 2) * 2000 + 1 * (j 0).val; omega
  | ⟨1, _⟩ => show win2_0.index t (1 : Fin 2) * 256 + 1 * k.val = k.val; omega

/-- The feature block's row `j 0`, feature `k`, is the feature array's entry on the output index's row. -/
theorem blk_h (c : Dev nD) (t : Fin cfg2.N) (j : S2000x128.Idx) (k : Fin 256) :
    iblk2 V c 1 t (lix2 j k) = (V c main_v40 : S50000x256.Idx → EReal) (lidx_main_v75 (((cfg2.win 5).blk t).view.emb j) k) := by
  unfold iblk2
  rw [View.read_apply]
  show V c main_v40 _ = V c main_v40 _
  obtain ⟨e00, e01, e10, e11, e20, e21, e30, e31, e40, e41, e50, e51⟩ := idx_facts t
  refine congrArg _ (funext fun a => Fin.ext ?_)
  match a with
  | ⟨0, _⟩ => show win2_1.index t (0 : Fin 2) * 2000 + 1 * (j 0).val = win2_5.index t (0 : Fin 2) * 2000 + 1 * (j 0).val; omega
  | ⟨1, _⟩ => show win2_1.index t (1 : Fin 2) * 256 + 1 * k.val = k.val; omega

/-- The neighbour weight's block is the whole matrix: row `k`, the output index's column. -/
theorem blk_wl (c : Dev nD) (t : Fin cfg2.N) (j : S2000x128.Idx) (k : Fin 256) :
    iblk2 V c 2 t (rix2 j k) = (V c main_arg8 : S256x128.Idx → EReal) (ridx_main_v75 (((cfg2.win 5).blk t).view.emb j) k) := by
  unfold iblk2
  rw [View.read_apply]
  show V c main_arg8 _ = V c main_arg8 _
  obtain ⟨e00, e01, e10, e11, e20, e21, e30, e31, e40, e41, e50, e51⟩ := idx_facts t
  refine congrArg _ (funext fun a => Fin.ext ?_)
  match a with
  | ⟨0, _⟩ => show win2_2.index t (0 : Fin 2) * 256 + 1 * k.val = k.val; omega
  | ⟨1, _⟩ => show win2_2.index t (1 : Fin 2) * 128 + 1 * (j 1).val = win2_5.index t (1 : Fin 2) * 128 + 1 * (j 1).val; omega

/-- The root weight's block is the whole matrix: row `k`, the output index's column. -/
theorem blk_wr (c : Dev nD) (t : Fin cfg2.N) (j : S2000x128.Idx) (k : Fin 256) :
    iblk2 V c 4 t (rix2 j k) = (V c main_arg10 : S256x128.Idx → EReal) (ridx_main_v75 (((cfg2.win 5).blk t).view.emb j) k) := by
  unfold iblk2
  rw [View.read_apply]
  show V c main_arg10 _ = V c main_arg10 _
  obtain ⟨e00, e01, e10, e11, e20, e21, e30, e31, e40, e41, e50, e51⟩ := idx_facts t
  refine congrArg _ (funext fun a => Fin.ext ?_)
  match a with
  | ⟨0, _⟩ => show win2_4.index t (0 : Fin 2) * 256 + 1 * k.val = k.val; omega
  | ⟨1, _⟩ => show win2_4.index t (1 : Fin 2) * 128 + 1 * (j 1).val = win2_5.index t (1 : Fin 2) * 128 + 1 * (j 1).val; omega

/-- The bias row's block is the whole row: the output index's column. -/
theorem blk_b (c : Dev nD) (t : Fin cfg2.N) (j : S2000x128.Idx) :
    iblk2 V c 3 t (bix2 j) = (V c main_v53 : S1x128.Idx → EReal) (idx_main_v77 (((cfg2.win 5).blk t).view.emb j)) := by
  unfold iblk2
  rw [View.read_apply]
  show V c main_v53 _ = V c main_v53 _
  obtain ⟨e00, e01, e10, e11, e20, e21, e30, e31, e40, e41, e50, e51⟩ := idx_facts t
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * (j 1).val = win2_5.index t (1 : Fin 2) * 128 + 1 * (j 1).val; omega

/-- The bias reshaped to a row reads the bias at the column. -/
theorem brow_apply (x3 : S128.Idx → EReal) (i : S1x128.Idx) :
    shapeCast S1x128 x3 shapeCasts_S128_S1x128 i = x3 (idx_main_v76 i) := by
  refine shapeCast_apply x3 shapeCasts_S128_S1x128 i (idx_main_v76 i) ?_
  rw [Shape.rowMajor_val_one, Shape.rowMajor_val_two]
  have h0 : (i 0).val < 1 := (i 0).isLt
  show (i 1).val = (i 0).val * 128 + (i 1).val
  omega

/-- WHAT POINT `t` WRITES BACK is block `t` of any array `G` that holds, at every index, the sum of the mean
    row's product with the neighbour weight column, the bias entry and the feature row's product with the root weight
    column — when the region's arrays hold that mean, those features, the two weights and the bias as a row. The body
    adds the bias last and `G` adds it second: addition of extended reals is commutative and associative. -/
theorem flushed (c : Dev nD) (mean h : S50000x256.Idx → EReal) (wl wr : S256x128.Idx → EReal) (b : S128.Idx → EReal)
    (G : S50000x128.Idx → EReal)
    (hG : ∀ i, G i = (((∑ k : Fin 256, mean (lidx_main_v75 i k) * wl (ridx_main_v75 i k)) + b (idx_main_v76 (idx_main_v77 i)))
      + ∑ k : Fin 256, h (lidx_main_v75 i k) * wr (ridx_main_v75 i k)))
    (hmean : (V c main_v52 : S50000x256.Idx → EReal) = mean)
    (hh : (V c main_v40 : S50000x256.Idx → EReal) = h) (hwl : (V c main_arg8 : S256x128.Idx → EReal) = wl)
    (hb : (V c main_v53 : S1x128.Idx → EReal) = shapeCast S1x128 b shapeCasts_S128_S1x128)
    (hwr : (V c main_arg10 : S256x128.Idx → EReal) = wr) (t : Fin cfg2.N) :
    (dat2 V c).flushed 5 t = ((cfg2.win 5).blk t).view.read (Elt Ideal) G := by
  show (cfg2.win 5).cut (grid2.coords t) ((dat2 V c).after 5 t) = _
  rw [after2_5]
  unfold out2_5
  rw [View.canon_unit_zero hz]
  simp only [View.ld_unit_zero (S := S2000x256) hz, View.ld_unit_zero (S := S256x128) hz, View.ld_unit_zero (S := S1x128) hz]
  funext j
  rw [View.read_apply]
  show k2_pay1 (F := Ideal) (iblk2 V c 0 t) (iblk2 V c 1 t) (iblk2 V c 2 t) (iblk2 V c 4 t) (iblk2 V c 3 t) j = _
  rw [pay2_apply, cast_eq, hG]
  simp only [blk_mean, blk_h, blk_wl, blk_wr, blk_b, hmean, hh, hwl, hb, hwr, brow_apply]
  rw [add_right_comm]

/-- Every index of the output array lies in the block of the grid point its row belongs to. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  refine ⟨t, flush2_5 t, ?_⟩
  show i ∈ ((View.whole main_v54).slice (win2_5.rect t)).set
  rw [View.set_slice_whole, Rect.mem_set_unit]
  obtain ⟨e00, e01, e10, e11, e20, e21, e30, e31, e40, e41, e50, e51⟩ := idx_facts t
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- THE OUTPUT ARRAY after the region is `G`. -/
theorem final (c : Dev nD) (mean h : S50000x256.Idx → EReal) (wl wr : S256x128.Idx → EReal) (b : S128.Idx → EReal)
    (G : S50000x128.Idx → EReal)
    (hG : ∀ i, G i = (((∑ k : Fin 256, mean (lidx_main_v75 i k) * wl (ridx_main_v75 i k)) + b (idx_main_v76 (idx_main_v77 i)))
      + ∑ k : Fin 256, h (lidx_main_v75 i k) * wr (ridx_main_v75 i k)))
    (hmean : (V c main_v52 : S50000x256.Idx → EReal) = mean)
    (hh : (V c main_v40 : S50000x256.Idx → EReal) = h) (hwl : (V c main_arg8 : S256x128.Idx → EReal) = wl)
    (hb : (V c main_v53 : S1x128.Idx → EReal) = shapeCast S1x128 b shapeCasts_S128_S1x128)
    (hwr : (V c main_arg10 : S256x128.Idx → EReal) = wr) :
    (dat2 V c).arrAt 5 cfg2.N = G :=
  (dat2 V c).arrAt_eq_of_cover 5 G (fun t _ => flushed V c mean h wl wr b G hG hmean hh hwl hb hwr t) cover

end Cert.KernelIdeal.Region2

end
-- ==== Proof.Host.lean ====
/-
  The kernel's program between its three layers, at the extended reals: what every layer's region finds in its arrays,
  and so what the program's result buffer holds at the end — the reference's stages of the arguments. Each stretch of
  host operations is read back from the contents the stretch starts from; the neighbour mean it prepares is the
  reference's by the two-ways lemma, the aggregation being the same scatter-add of the same gather on both sides; each
  region's output is the reference's layer by that region's value lemma.
-/
import proofs.«404211_j76751065579701_1_alg».proof.Proof.Gen.KernelIdeal.Frame
import proofs.«404211_j76751065579701_1_alg».proof.Proof.Gen.ReferenceIdeal.Read
import proofs.«404211_j76751065579701_1_alg».proof.Proof.Mean
import proofs.«404211_j76751065579701_1_alg».proof.Proof.Layers
import proofs.«404211_j76751065579701_1_alg».proof.Proof.Region0
import proofs.«404211_j76751065579701_1_alg».proof.Proof.Region1
import proofs.«404211_j76751065579701_1_alg».proof.Proof.Region2
import Idealize.ShloMosaic.Lib.StableHlo.Run

set_option maxRecDepth 16384

noncomputable section

namespace Cert.KernelIdeal.Host

open Cert.KernelIdeal Cert.KernelIdeal.Gen Cert.KernelIdeal.Mean Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

/-- The argument arrays at launch. -/
abbrev a0 (c : Dev nD) : S50000x128.Idx → EReal := m ((c : Thread nD τ).loc main_arg0)
abbrev a1 (c : Dev nD) : EI := m ((c : Thread nD τ).loc main_arg1)
abbrev a2 (c : Dev nD) : S128x256.Idx → EReal := m ((c : Thread nD τ).loc main_arg2)
abbrev a3 (c : Dev nD) : S256.Idx → EReal := m ((c : Thread nD τ).loc main_arg3)
abbrev a4 (c : Dev nD) : S128x256.Idx → EReal := m ((c : Thread nD τ).loc main_arg4)
abbrev a5 (c : Dev nD) : S256x256.Idx → EReal := m ((c : Thread nD τ).loc main_arg5)
abbrev a6 (c : Dev nD) : S256.Idx → EReal := m ((c : Thread nD τ).loc main_arg6)
abbrev a7 (c : Dev nD) : S256x256.Idx → EReal := m ((c : Thread nD τ).loc main_arg7)
abbrev a8 (c : Dev nD) : S256x128.Idx → EReal := m ((c : Thread nD τ).loc main_arg8)
abbrev a9 (c : Dev nD) : S128.Idx → EReal := m ((c : Thread nD τ).loc main_arg9)
abbrev a10 (c : Dev nD) : S256x128.Idx → EReal := m ((c : Thread nD τ).loc main_arg10)

/-- The reference's two hidden layers and its result, of the arguments. -/
abbrev h1 (c : Dev nD) : S50000x256.Idx → EReal := val_main_v29 (F := Ideal) (a0 m c) (a1 m c) (a2 m c) (a3 m c) (a4 m c)
abbrev h2 (c : Dev nD) : S50000x256.Idx → EReal := val_main_v55 (F := Ideal) (a0 m c) (a1 m c) (a2 m c) (a3 m c) (a4 m c) (a5 m c) (a6 m c) (a7 m c)
abbrev out (c : Dev nD) : S50000x128.Idx → EReal :=
  val_main_v80 (F := Ideal) (a0 m c) (a1 m c) (a2 m c) (a3 m c) (a4 m c) (a5 m c) (a6 m c) (a7 m c) (a8 m c) (a9 m c) (a10 m c)

/-! ## Before the first region -/

theorem W1_v24 (c : Dev nD) : W1 m ρ c (Proc.devRef .tc main_v24) = val_main_v22 (F := Ideal) (a0 m c) (a1 m c) := by
  show StableHlo.after hostOps0 (W0 m ρ c) (Proc.devRef .tc main_v24) = _
  after_results_simp
  exact mean128 (val_main_v13 (F := Ideal) (a0 m c) (a1 m c)) (a1 m c)

theorem W1_arg0 (c : Dev nD) : W1 m ρ c (Proc.devRef .tc main_arg0) = a0 m c := by
  show StableHlo.after hostOps0 (W0 m ρ c) (Proc.devRef .tc main_arg0) = _
  after_results_simp
theorem W1_arg2 (c : Dev nD) : W1 m ρ c (Proc.devRef .tc main_arg2) = a2 m c := by
  show StableHlo.after hostOps0 (W0 m ρ c) (Proc.devRef .tc main_arg2) = _
  after_results_simp
theorem W1_arg4 (c : Dev nD) : W1 m ρ c (Proc.devRef .tc main_arg4) = a4 m c := by
  show StableHlo.after hostOps0 (W0 m ρ c) (Proc.devRef .tc main_arg4) = _
  after_results_simp
theorem W1_v25 (c : Dev nD) : W1 m ρ c (Proc.devRef .tc main_v25) = shapeCast S1x256 (a3 m c) shapeCasts_S256_S1x256 := by
  show StableHlo.after hostOps0 (W0 m ρ c) (Proc.devRef .tc main_v25) = _
  after_results_simp
  rfl

/-- What the later stretches read of the first: the edges' source and destination nodes and one over the clamped in-degree. -/
theorem W1_v1 (c : Dev nD) : W1 m ρ c (Proc.devRef .tc main_v1) = shapeCast S800000 (extractStridedSlice S1x800000 ![0, 0] (a1 m c) slices_S2x800000_S1x800000_0_0) shapeCasts_S1x800000_S800000 := by
  show StableHlo.after hostOps0 (W0 m ρ c) (Proc.devRef .tc main_v1) = _
  after_results_simp
  rfl
theorem W1_v3 (c : Dev nD) : W1 m ρ c (Proc.devRef .tc main_v3) = shapeCast S800000 (extractStridedSlice S1x800000 ![1, 0] (a1 m c) slices_S2x800000_S1x800000_1_0) shapeCasts_S1x800000_S800000 := by
  show StableHlo.after hostOps0 (W0 m ρ c) (Proc.devRef .tc main_v3) = _
  after_results_simp
  rfl
theorem W1_v12 (c : Dev nD) : W1 m ρ c (Proc.devRef .tc main_v12) = broadcastInDim S50000x1 ![0] bcast_S50000_S50000x1_0 (invRow (a1 m c)) := by
  show StableHlo.after hostOps0 (W0 m ρ c) (Proc.devRef .tc main_v12) = _
  after_results_simp
  rfl
theorem W1_arg5 (c : Dev nD) : W1 m ρ c (Proc.devRef .tc main_arg5) = a5 m c := by
  show StableHlo.after hostOps0 (W0 m ρ c) (Proc.devRef .tc main_arg5) = _
  after_results_simp
theorem W1_arg6 (c : Dev nD) : W1 m ρ c (Proc.devRef .tc main_arg6) = a6 m c := by
  show StableHlo.after hostOps0 (W0 m ρ c) (Proc.devRef .tc main_arg6) = _
  after_results_simp
theorem W1_arg7 (c : Dev nD) : W1 m ρ c (Proc.devRef .tc main_arg7) = a7 m c := by
  show StableHlo.after hostOps0 (W0 m ρ c) (Proc.devRef .tc main_arg7) = _
  after_results_simp
theorem W1_arg8 (c : Dev nD) : W1 m ρ c (Proc.devRef .tc main_arg8) = a8 m c := by
  show StableHlo.after hostOps0 (W0 m ρ c) (Proc.devRef .tc main_arg8) = _
  after_results_simp
theorem W1_arg9 (c : Dev nD) : W1 m ρ c (Proc.devRef .tc main_arg9) = a9 m c := by
  show StableHlo.after hostOps0 (W0 m ρ c) (Proc.devRef .tc main_arg9) = _
  after_results_simp
theorem W1_arg10 (c : Dev nD) : W1 m ρ c (Proc.devRef .tc main_arg10) = a10 m c := by
  show StableHlo.after hostOps0 (W0 m ρ c) (Proc.devRef .tc main_arg10) = _
  after_results_simp

/-! ## Through the first region -/

/-- The first region's output array is the reference's first hidden layer. -/
theorem W2_v26 (c : Dev nD) : W2 m ρ c (Proc.devRef .tc main_v26) = h1 m c :=
  (W2_arr m ρ c 5).trans (Region0.final (V1 m ρ) c (val_main_v22 (F := Ideal) (a0 m c) (a1 m c)) (a0 m c) (a2 m c) (a4 m c) (a3 m c) (h1 m c)
    (Cert.ReferenceIdeal.Layers.layer0_apply (a0 m c) (a1 m c) (a2 m c) (a3 m c) (a4 m c)) (W1_v24 m ρ c) (W1_arg0 m ρ c) (W1_arg2 m ρ c) (W1_v25 m ρ c) (W1_arg4 m ρ c))
theorem W2_v1 (c : Dev nD) : W2 m ρ c (Proc.devRef .tc main_v1) = shapeCast S800000 (extractStridedSlice S1x800000 ![0, 0] (a1 m c) slices_S2x800000_S1x800000_0_0) shapeCasts_S1x800000_S800000 :=
  (W2_of_ne m ρ c main_v1 (by decide)).trans (W1_v1 m ρ c)
theorem W2_v3 (c : Dev nD) : W2 m ρ c (Proc.devRef .tc main_v3) = shapeCast S800000 (extractStridedSlice S1x800000 ![1, 0] (a1 m c) slices_S2x800000_S1x800000_1_0) shapeCasts_S1x800000_S800000 :=
  (W2_of_ne m ρ c main_v3 (by decide)).trans (W1_v3 m ρ c)
theorem W2_v12 (c : Dev nD) : W2 m ρ c (Proc.devRef .tc main_v12) = broadcastInDim S50000x1 ![0] bcast_S50000_S50000x1_0 (invRow (a1 m c)) :=
  (W2_of_ne m ρ c main_v12 (by decide)).trans (W1_v12 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)
theorem W2_arg7 (c : Dev nD) : W2 m ρ c (Proc.devRef .tc main_arg7) = a7 m c :=
  (W2_of_ne m ρ c main_arg7 (by decide)).trans (W1_arg7 m ρ c)
theorem W2_arg8 (c : Dev nD) : W2 m ρ c (Proc.devRef .tc main_arg8) = a8 m c :=
  (W2_of_ne m ρ c main_arg8 (by decide)).trans (W1_arg8 m ρ c)
theorem W2_arg9 (c : Dev nD) : W2 m ρ c (Proc.devRef .tc main_arg9) = a9 m c :=
  (W2_of_ne m ρ c main_arg9 (by decide)).trans (W1_arg9 m ρ c)
theorem W2_arg10 (c : Dev nD) : W2 m ρ c (Proc.devRef .tc main_arg10) = a10 m c :=
  (W2_of_ne m ρ c main_arg10 (by decide)).trans (W1_arg10 m ρ c)

/-! ## Before the second region -/

theorem W3_v38 (c : Dev nD) : W3 m ρ c (Proc.devRef .tc main_v38) = val_main_v48 (F := Ideal) (a0 m c) (a1 m c) (a2 m c) (a3 m c) (a4 m c) := by
  show StableHlo.after hostOps1 (W2 m ρ c) (Proc.devRef .tc main_v38) = _
  after_results_simp
  rw [W2_v1, W2_v3, W2_v12, W2_v26]
  exact mean256 (val_main_v39 (F := Ideal) (a0 m c) (a1 m c) (a2 m c) (a3 m c) (a4 m c)) (a1 m c)
theorem W3_v26 (c : Dev nD) : W3 m ρ c (Proc.devRef .tc main_v26) = h1 m c := by
  show StableHlo.after hostOps1 (W2 m ρ c) (Proc.devRef .tc main_v26) = _
  after_results_simp
  exact W2_v26 m ρ c
theorem W3_v39 (c : Dev nD) : W3 m ρ c (Proc.devRef .tc main_v39) = shapeCast S1x256 (a6 m c) shapeCasts_S256_S1x256 := by
  show StableHlo.after hostOps1 (W2 m ρ c) (Proc.devRef .tc main_v39) = _
  after_results_simp
  rw [W2_arg6]
  rfl
theorem W3_v1 (c : Dev nD) : W3 m ρ c (Proc.devRef .tc main_v1) = shapeCast S800000 (extractStridedSlice S1x800000 ![0, 0] (a1 m c) slices_S2x800000_S1x800000_0_0) shapeCasts_S1x800000_S800000 := by
  show StableHlo.after hostOps1 (W2 m ρ c) (Proc.devRef .tc main_v1) = _
  after_results_simp
  exact W2_v1 m ρ c
theorem W3_v3 (c : Dev nD) : W3 m ρ c (Proc.devRef .tc main_v3) = shapeCast S800000 (extractStridedSlice S1x800000 ![1, 0] (a1 m c) slices_S2x800000_S1x800000_1_0) shapeCasts_S1x800000_S800000 := by
  show StableHlo.after hostOps1 (W2 m ρ c) (Proc.devRef .tc main_v3) = _
  after_results_simp
  exact W2_v3 m ρ c
theorem W3_v12 (c : Dev nD) : W3 m ρ c (Proc.devRef .tc main_v12) = broadcastInDim S50000x1 ![0] bcast_S50000_S50000x1_0 (invRow (a1 m c)) := by
  show StableHlo.after hostOps1 (W2 m ρ c) (Proc.devRef .tc main_v12) = _
  after_results_simp
  exact W2_v12 m ρ c
theorem W3_arg5 (c : Dev nD) : W3 m ρ c (Proc.devRef .tc main_arg5) = a5 m c := by
  show StableHlo.after hostOps1 (W2 m ρ c) (Proc.devRef .tc main_arg5) = _
  after_results_simp
  exact W2_arg5 m ρ c
theorem W3_arg7 (c : Dev nD) : W3 m ρ c (Proc.devRef .tc main_arg7) = a7 m c := by
  show StableHlo.after hostOps1 (W2 m ρ c) (Proc.devRef .tc main_arg7) = _
  after_results_simp
  exact W2_arg7 m ρ c
theorem W3_arg8 (c : Dev nD) : W3 m ρ c (Proc.devRef .tc main_arg8) = a8 m c := by
  show StableHlo.after hostOps1 (W2 m ρ c) (Proc.devRef .tc main_arg8) = _
  after_results_simp
  exact W2_arg8 m ρ c
theorem W3_arg9 (c : Dev nD) : W3 m ρ c (Proc.devRef .tc main_arg9) = a9 m c := by
  show StableHlo.after hostOps1 (W2 m ρ c) (Proc.devRef .tc main_arg9) = _
  after_results_simp
  exact W2_arg9 m ρ c
theorem W3_arg10 (c : Dev nD) : W3 m ρ c (Proc.devRef .tc main_arg10) = a10 m c := by
  show StableHlo.after hostOps1 (W2 m ρ c) (Proc.devRef .tc main_arg10) = _
  after_results_simp
  exact W2_arg10 m ρ c

/-! ## Through the second region -/

/-- The second region's output array is the reference's second hidden layer. -/
theorem W4_v40 (c : Dev nD) : W4 m ρ c (Proc.devRef .tc main_v40) = h2 m c :=
  (W4_arr m ρ c 5).trans (Region1.final (V3 m ρ) c (val_main_v48 (F := Ideal) (a0 m c) (a1 m c) (a2 m c) (a3 m c) (a4 m c)) (h1 m c) (a5 m c) (a7 m c) (a6 m c) (h2 m c)
    (Cert.ReferenceIdeal.Layers.layer1_apply (a0 m c) (a1 m c) (a2 m c) (a3 m c) (a4 m c) (a5 m c) (a6 m c) (a7 m c)) (W3_v38 m ρ c) (W3_v26 m ρ c) (W3_arg5 m ρ c) (W3_v39 m ρ c) (W3_arg7 m ρ c))
theorem W4_v1 (c : Dev nD) : W4 m ρ c (Proc.devRef .tc main_v1) = shapeCast S800000 (extractStridedSlice S1x800000 ![0, 0] (a1 m c) slices_S2x800000_S1x800000_0_0) shapeCasts_S1x800000_S800000 :=
  (W4_of_ne m ρ c main_v1 (by decide)).trans (W3_v1 m ρ c)
theorem W4_v3 (c : Dev nD) : W4 m ρ c (Proc.devRef .tc main_v3) = shapeCast S800000 (extractStridedSlice S1x800000 ![1, 0] (a1 m c) slices_S2x800000_S1x800000_1_0) shapeCasts_S1x800000_S800000 :=
  (W4_of_ne m ρ c main_v3 (by decide)).trans (W3_v3 m ρ c)
theorem W4_v12 (c : Dev nD) : W4 m ρ c (Proc.devRef .tc main_v12) = broadcastInDim S50000x1 ![0] bcast_S50000_S50000x1_0 (invRow (a1 m c)) :=
  (W4_of_ne m ρ c main_v12 (by decide)).trans (W3_v12 m ρ c)
theorem W4_arg8 (c : Dev nD) : W4 m ρ c (Proc.devRef .tc main_arg8) = a8 m c :=
  (W4_of_ne m ρ c main_arg8 (by decide)).trans (W3_arg8 m ρ c)
theorem W4_arg9 (c : Dev nD) : W4 m ρ c (Proc.devRef .tc main_arg9) = a9 m c :=
  (W4_of_ne m ρ c main_arg9 (by decide)).trans (W3_arg9 m ρ c)
theorem W4_arg10 (c : Dev nD) : W4 m ρ c (Proc.devRef .tc main_arg10) = a10 m c :=
  (W4_of_ne m ρ c main_arg10 (by decide)).trans (W3_arg10 m ρ c)

/-! ## Before the third region -/

theorem W5_v52 (c : Dev nD) : W5 m ρ c (Proc.devRef .tc main_v52) = val_main_v74 (F := Ideal) (a0 m c) (a1 m c) (a2 m c) (a3 m c) (a4 m c) (a5 m c) (a6 m c) (a7 m c) := by
  show StableHlo.after hostOps2 (W4 m ρ c) (Proc.devRef .tc main_v52) = _
  after_results_simp
  rw [W4_v1, W4_v3, W4_v12, W4_v40]
  exact mean256 (val_main_v65 (F := Ideal) (a0 m c) (a1 m c) (a2 m c) (a3 m c) (a4 m c) (a5 m c) (a6 m c) (a7 m c)) (a1 m c)
theorem W5_v40 (c : Dev nD) : W5 m ρ c (Proc.devRef .tc main_v40) = h2 m c := by
  show StableHlo.after hostOps2 (W4 m ρ c) (Proc.devRef .tc main_v40) = _
  after_results_simp
  exact W4_v40 m ρ c
theorem W5_v53 (c : Dev nD) : W5 m ρ c (Proc.devRef .tc main_v53) = shapeCast S1x128 (a9 m c) shapeCasts_S128_S1x128 := by
  show StableHlo.after hostOps2 (W4 m ρ c) (Proc.devRef .tc main_v53) = _
  after_results_simp
  rw [W4_arg9]
  rfl
theorem W5_arg8 (c : Dev nD) : W5 m ρ c (Proc.devRef .tc main_arg8) = a8 m c := by
  show StableHlo.after hostOps2 (W4 m ρ c) (Proc.devRef .tc main_arg8) = _
  after_results_simp
  exact W4_arg8 m ρ c
theorem W5_arg10 (c : Dev nD) : W5 m ρ c (Proc.devRef .tc main_arg10) = a10 m c := by
  show StableHlo.after hostOps2 (W4 m ρ c) (Proc.devRef .tc main_arg10) = _
  after_results_simp
  exact W4_arg10 m ρ c

/-! ## Through the third region: the result -/

/-- THE RESULT BUFFER at the program's end is the reference's result of the arguments. -/
theorem W6_v54 (c : Dev nD) : W6 m ρ c (Proc.devRef .tc main_v54) = out m c :=
  (W6_arr m ρ c 5).trans (Region2.final (V5 m ρ) c (val_main_v74 (F := Ideal) (a0 m c) (a1 m c) (a2 m c) (a3 m c) (a4 m c) (a5 m c) (a6 m c) (a7 m c)) (h2 m c) (a8 m c) (a10 m c) (a9 m c) (out m c)
    (Cert.ReferenceIdeal.Layers.layer2_apply (a0 m c) (a1 m c) (a2 m c) (a3 m c) (a4 m c) (a5 m c) (a6 m c) (a7 m c) (a8 m c) (a9 m c) (a10 m c)) (W5_v52 m ρ c) (W5_v40 m ρ c) (W5_arg8 m ρ c) (W5_v53 m ρ c) (W5_arg10 m ρ c))

end Cert.KernelIdeal.Host

end
-- ==== Proof.lean ====
/-
  Three-layer GraphSAGE with mean aggregation: the kernel's program against the reference, over the extended reals.

  Every layer is  mean(h) · W_l + b + h · W_r  (rectified in the two hidden layers), where mean(h) is the scatter-add over
  the edges of the gathered source rows of h, over the in-degree clamped below at one. The two programs differ in three
  ways, none of which changes a value over the extended reals:
    * the kernel's program counts the in-degree once and multiplies by its reciprocal where the reference divides:
      a · (1 / c) = a / c for every extended real a once c ≥ 1 (Proof/Mean.lean);
    * the kernel adds the bias last, the reference second: addition is commutative and associative (Proof/Region*.lean);
    * the kernel computes each layer 2000 rows at a time with the matrix unit (operands narrowed to bf16, the identity
      here) into a zero accumulator, the reference with one whole product: the same inner products (Proof/Pay*.lean).
  The gather and the scatter-add are the same operations of the same operands on both sides and are never opened.
  No finiteness of the inputs is used.
-/
import proofs.«404211_j76751065579701_1_alg».proof.Defs
import proofs.«404211_j76751065579701_1_alg».proof.Proof.Gen.Kernel
import proofs.«404211_j76751065579701_1_alg».proof.Proof.Gen.Kernel.Skeleton
import proofs.«404211_j76751065579701_1_alg».proof.Proof.Gen.Kernel.Launch
import proofs.«404211_j76751065579701_1_alg».proof.Proof.Gen.Kernel.Points
import proofs.«404211_j76751065579701_1_alg».proof.Proof.Gen.Kernel.Frame
import proofs.«404211_j76751065579701_1_alg».proof.Proof.Gen.KernelIdeal
import proofs.«404211_j76751065579701_1_alg».proof.Proof.Gen.KernelIdeal.Skeleton
import proofs.«404211_j76751065579701_1_alg».proof.Proof.Gen.KernelIdeal.Launch
import proofs.«404211_j76751065579701_1_alg».proof.Proof.Gen.KernelIdeal.Points
import proofs.«404211_j76751065579701_1_alg».proof.Proof.Gen.KernelIdeal.Frame
import proofs.«404211_j76751065579701_1_alg».proof.Proof.Gen.ReferenceIdeal
import proofs.«404211_j76751065579701_1_alg».proof.Proof.Gen.Pre_finite_inputs
import proofs.«404211_j76751065579701_1_alg».proof.Proof.Gen.ReferenceIdeal.Run
import proofs.«404211_j76751065579701_1_alg».proof.Proof.Gen.ReferenceIdeal.Read
import proofs.«404211_j76751065579701_1_alg».proof.Proof.KernelRun
import proofs.«404211_j76751065579701_1_alg».proof.Proof.Host
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ
/-- So does its reading over the extended reals. -/
theorem frame_ki : Cert.frame_KernelIdeal := fun m ρ _ => Cert.KernelIdeal.Gen.frame m ρ
/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's three layers of the arguments in their result buffers. -/
theorem algebraic : Cert.algebraic_KernelIdeal_ReferenceIdeal := by
  intro m ρ m' ρ' _ hagree
  refine ⟨fun c => Cert.KernelIdeal.Host.out m c, ?_, ?_⟩
  · exact (θ_run Cert.KernelIdeal.defs _ _).mono
      (fun r h c => ⟨(h c).1.trans (Cert.KernelIdeal.Host.W6_v54 m ρ c), (h c).2⟩)
      (Cert.KernelIdeal.RunNamed.run_named (F := Ideal) m ρ)
  · refine (θ_run Cert.ReferenceIdeal.defs _ _).mono
      (fun _ h c => ⟨(h c).1.trans ((Cert.ReferenceIdeal.Read.val_main_v80_eq m' c).trans ?_), (h c).2⟩)
      (Cert.ReferenceIdeal.Value.run (F := Ideal) m' ρ')
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
